-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x4096 : Shape := ⟨3, ![8, 16, 4096]⟩
abbrev S4096x11008 : Shape := ⟨2, ![4096, 11008]⟩
abbrev S32x11008 : Shape := ⟨2, ![32, 11008]⟩
abbrev S16x4096 : Shape := ⟨2, ![16, 4096]⟩
abbrev S11008x16 : Shape := ⟨2, ![11008, 16]⟩
abbrev S_ : Shape := ⟨0, ![]⟩

class Facts : Prop where
  bcast_S_S8x16x4096 : S_.BroadcastsInDim S8x16x4096 (![] : Fin 0 → Fin S8x16x4096.rank)
  reducesTo_S8x16x4096_S_d0_1_2 : S8x16x4096.ReducesTo [0, 1, 2] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S16x4096 : S_.BroadcastsInDim S16x4096 (![] : Fin 0 → Fin S16x4096.rank)
  reducesTo_S16x4096_S_d0_1 : S16x4096.ReducesTo [0, 1] S_
  bcast_S_S11008x16 : S_.BroadcastsInDim S11008x16 (![] : Fin 0 → Fin S11008x16.rank)
  reducesTo_S11008x16_S_d0_1 : S11008x16.ReducesTo [0, 1] S_

variable [Facts]

def fn_part1 {F : FTy → Type} [FloatOps F] (main_v13 : IVec S_ 1) (main_v16 : IVec S11008x16 1) : IVec S_ 1 :=
  let main_c_5 : IVec S_ 1 := constantI S_ 1 1#1
  let main_v17 : IVec S_ 1 := (fun x v => Host.reduce IntOp.andi x v reducesTo_S11008x16_S_d0_1 h_S_) main_v16 main_c_5
  let main_v18 : IVec S_ 1 := andi main_v13 main_v17
  main_v18

def fn {F : FTy → Type} [FloatOps F] (main_arg0 : FVec F S8x16x4096 .f32) (main_arg1 : IVec S4096x11008 32) (main_arg2 : IVec S32x11008 32) (main_arg3 : FVec F S32x11008 .f32) (main_arg4 : FVec F S16x4096 .f32) (main_arg5 : FVec F S11008x16 .f32) : IVec S_ 1 :=
  let main_v0 : FVec F S8x16x4096 .f32 := Host.absf main_arg0
  let main_cst : FVec F S_ .f32 := constant S_ .f32 0x7F800000#32
  let main_v1 : FVec F S8x16x4096 .f32 := broadcastInDim S8x16x4096 ![] bcast_S_S8x16x4096 main_cst
  let main_v2 : IVec S8x16x4096 1 := cmpf .olt main_v0 main_v1
  let main_c : IVec S_ 1 := constantI S_ 1 1#1
  let main_v3 : IVec S_ 1 := (fun x v => Host.reduce IntOp.andi x v reducesTo_S8x16x4096_S_d0_1_2 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S16x4096 .f32 := Host.absf main_arg4
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S11008x16 .f32 := Host.absf main_arg5
  let main_cst_4 : FVec F S_ .f32 := constant S_ .f32 0x7F800000#32
  let main_v15 : FVec F S11008x16 .f32 := broadcastInDim S11008x16 ![] bcast_S_S11008x16 main_cst_4
  let main_v16 : IVec S11008x16 1 := cmpf .olt main_v14 main_v15
  fn_part1 (F := F) main_v13 main_v16
-- ==== Kernel.lean ====
abbrev S8x16x4096 : Shape := ⟨3, ![8, 16, 4096]⟩
abbrev S4096x11008 : Shape := ⟨2, ![4096, 11008]⟩
abbrev S32x11008 : Shape := ⟨2, ![32, 11008]⟩
abbrev S16x4096 : Shape := ⟨2, ![16, 4096]⟩
abbrev S11008x16 : Shape := ⟨2, ![11008, 16]⟩
abbrev S128x4096 : Shape := ⟨2, ![128, 4096]⟩
abbrev S4096x16 : Shape := ⟨2, ![4096, 16]⟩
abbrev S128x16 : Shape := ⟨2, ![128, 16]⟩
abbrev S32x1x11008 : Shape := ⟨3, ![32, 1, 11008]⟩
abbrev S128x11008 : Shape := ⟨2, ![128, 11008]⟩
abbrev S128x128 : Shape := ⟨2, ![128, 128]⟩
abbrev S128x5504 : Shape := ⟨2, ![128, 5504]⟩
abbrev S1x1x5504 : Shape := ⟨3, ![1, 1, 5504]⟩
abbrev S5504x16 : Shape := ⟨2, ![5504, 16]⟩
abbrev S1x5504 : Shape := ⟨2, ![1, 5504]⟩
abbrev S16x5504 : Shape := ⟨2, ![16, 5504]⟩
abbrev S8x16x11008 : Shape := ⟨3, ![8, 16, 11008]⟩

abbrev nBuf : Space → Nat
  | .hbm => 13
  | .vmem => 14
  | .smem => 0
  | _ => 0

abbrev bufTy : (tb : Table) → Fin (tcTables nBuf tb) → BufTy
  | .hbm, ⟨0, _⟩ => ⟨S8x16x4096, .f32⟩
  | .hbm, ⟨1, _⟩ => ⟨S4096x11008, .i32⟩
  | .hbm, ⟨2, _⟩ => ⟨S32x11008, .i32⟩
  | .hbm, ⟨3, _⟩ => ⟨S32x11008, .f32⟩
  | .hbm, ⟨4, _⟩ => ⟨S16x4096, .f32⟩
  | .hbm, ⟨5, _⟩ => ⟨S11008x16, .f32⟩
  | .hbm, ⟨6, _⟩ => ⟨S128x4096, .f32⟩
  | .hbm, ⟨7, _⟩ => ⟨S4096x16, .f32⟩
  | .hbm, ⟨8, _⟩ => ⟨S128x16, .f32⟩
  | .hbm, ⟨9, _⟩ => ⟨S32x1x11008, .i32⟩
  | .hbm, ⟨10, _⟩ => ⟨S32x1x11008, .f32⟩
  | .hbm, ⟨11, _⟩ => ⟨S128x11008, .f32⟩
  | .hbm, ⟨12, _⟩ => ⟨S8x16x11008, .f32⟩
  | .local _ .vmem, ⟨0, _⟩ => ⟨S128x128, .f32⟩
  | .local _ .vmem, ⟨1, _⟩ => ⟨S128x128, .f32⟩
  | .local _ .vmem, ⟨2, _⟩ => ⟨S128x5504, .i32⟩
  | .local _ .vmem, ⟨3, _⟩ => ⟨S128x5504, .i32⟩
  | .local _ .vmem, ⟨4, _⟩ => ⟨S1x1x5504, .i32⟩
  | .local _ .vmem, ⟨5, _⟩ => ⟨S1x1x5504, .i32⟩
  | .local _ .vmem, ⟨6, _⟩ => ⟨S1x1x5504, .f32⟩
  | .local _ .vmem, ⟨7, _⟩ => ⟨S1x1x5504, .f32⟩
  | .local _ .vmem, ⟨8, _⟩ => ⟨S128x16, .f32⟩
  | .local _ .vmem, ⟨9, _⟩ => ⟨S5504x16, .f32⟩
  | .local _ .vmem, ⟨10, _⟩ => ⟨S5504x16, .f32⟩
  | .local _ .vmem, ⟨11, _⟩ => ⟨S128x5504, .f32⟩
  | .local _ .vmem, ⟨12, _⟩ => ⟨S128x5504, .f32⟩
  | .local _ .vmem, ⟨13, _⟩ => ⟨S128x5504, .f32⟩
  | _, _ => ⟨S8x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v24 : BitVec 1 := Scalar.cmpi .eq arg1 c31_i32
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x5504 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x5504 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x5504 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S5504x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x5504 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S8x16x4096_S128x4096 : S8x16x4096.ShapeCasts S128x4096
  transposes_S16x4096_S4096x16_1_0 : S16x4096.Transposes [1, 0] S4096x16
  bcast_S32x11008_S32x1x11008_0_2 : S32x11008.BroadcastsInDim S32x1x11008 (![0, 2] : Fin 2 → Fin S32x1x11008.rank)
  inb_S128x5504_S128x5504_0_0 : ∀ a, (![0, 0] : Fin 2 → Nat) a + S128x5504.size a ≤ S128x5504.size a
  h_S128x5504 : 0 < S128x5504.numel
  shapeCasts_S128x5504_S128x5504 : S128x5504.ShapeCasts S128x5504
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x1x5504_S1x1x5504_0_0_0 : ∀ a, (![0, 0, 0] : Fin 3 → Nat) a + S1x1x5504.size a ≤ S1x1x5504.size a
  h_S1x1x5504 : 0 < S1x1x5504.numel
  shapeCasts_S1x1x5504_S1x5504 : S1x1x5504.ShapeCasts S1x5504
  broadcasts_S1x5504_S128x5504 : S1x5504.Broadcasts S128x5504
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S5504x16_S5504x16_0_0 : ∀ a, (![0, 0] : Fin 2 → Nat) a + S5504x16.size a ≤ S5504x16.size a
  h_S5504x16 : 0 < S5504x16.numel
  transposes_S5504x16_p1_0_S16x5504 : S5504x16.Transposes [1, 0] S16x5504
  shapeCasts_S128x11008_S8x16x11008 : S128x11008.ShapeCasts S8x16x11008
  dot_S128x4096_S4096x16_S128x16_1_0_0_1_n_n_wf : DotDims.WF S128x4096 S4096x16 S128x16 [1] [0] [0] [1] [] []
  dot_S128x128_S128x5504_S128x5504_1_0_0_1_n_n_wf : DotDims.WF S128x128 S128x5504 S128x5504 [1] [0] [0] [1] [] []
  dot_S128x16_S16x5504_S128x5504_1_0_0_1_n_n_wf : DotDims.WF S128x16 S16x5504 S128x5504 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x4096.size a
  hwx0_0 : ∀ i : grid0.Coords, EltTy.bits .f32 = 32 ∨ (Rect.block (s := S128x4096) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x5504.size a ≤ S4096x11008.size a
  hwx0_1 : ∀ i : grid0.Coords, EltTy.bits .i32 = 32 ∨ (Rect.block (s := S4096x11008) S128x5504.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x5504.size a ≤ S32x1x11008.size a
  hwx0_2 : ∀ i : grid0.Coords, EltTy.bits .i32 = 32 ∨ (Rect.block (s := S32x1x11008) S1x1x5504.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x5504.size a ≤ S32x1x11008.size a
  hwx0_3 : ∀ i : grid0.Coords, EltTy.bits .f32 = 32 ∨ (Rect.block (s := S32x1x11008) S1x1x5504.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x16.size a ≤ S128x16.size a
  hwx0_4 : ∀ i : grid0.Coords, EltTy.bits .f32 = 32 ∨ (Rect.block (s := S128x16) S128x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5504x16.size a ≤ S11008x16.size a
  hwx0_5 : ∀ i : grid0.Coords, EltTy.bits .f32 = 32 ∨ (Rect.block (s := S11008x16) S5504x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x5504.size a ≤ S128x11008.size a
  hwx0_6 : ∀ i : grid0.Coords, EltTy.bits .f32 = 32 ∨ (Rect.block (s := S128x11008) S128x5504.size (cc0_transform_6 i) (hinb0_6 i)).WholeWords (EltTy.packing .f32)

variable [Facts₀]

def dot_S128x4096_S4096x16_S128x16_1_0_0_1_n_n : DotDims S128x4096 S4096x16 S128x16 where
  lhsContracting := [1]
  rhsContracting := [0]
  lhsNonContracting := [0]
  rhsNonContracting := [1]
  lhsBatch := []
  rhsBatch := []
  wf := dot_S128x4096_S4096x16_S128x16_1_0_0_1_n_n_wf
def dot_S128x128_S128x5504_S128x5504_1_0_0_1_n_n : DotDims S128x128 S128x5504 S128x5504 where
  lhsContracting := [1]
  rhsContracting := [0]
  lhsNonContracting := [0]
  rhsNonContracting := [1]
  lhsBatch := []
  rhsBatch := []
  wf := dot_S128x128_S128x5504_S128x5504_1_0_0_1_n_n_wf
def dot_S128x16_S16x5504_S128x5504_1_0_0_1_n_n : DotDims S128x16 S16x5504 S128x5504 where
  lhsContracting := [1]
  rhsContracting := [0]
  lhsNonContracting := [0]
  rhsNonContracting := [1]
  lhsBatch := []
  rhsBatch := []
  wf := dot_S128x16_S16x5504_S128x5504_1_0_0_1_n_n_wf

abbrev win0_0 : Pipeline.Window sig grid0 :=
  Pipeline.Window.ofSpec (Memref.whole main_v0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x5504.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x5504.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x5504.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S5504x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S128x5504.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x16x4096 : Shape := ⟨3, ![8, 16, 4096]⟩
abbrev S4096x11008 : Shape := ⟨2, ![4096, 11008]⟩
abbrev S32x11008 : Shape := ⟨2, ![32, 11008]⟩
abbrev S16x4096 : Shape := ⟨2, ![16, 4096]⟩
abbrev S11008x16 : Shape := ⟨2, ![11008, 16]⟩
abbrev S32x128x11008 : Shape := ⟨3, ![32, 128, 11008]⟩
abbrev S8x16x11008 : Shape := ⟨3, ![8, 16, 11008]⟩
abbrev S8x16x16 : Shape := ⟨3, ![8, 16, 16]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8x16x4096, .f32⟩
  | .hbm, ⟨1, _⟩ => ⟨S4096x11008, .i32⟩
  | .hbm, ⟨2, _⟩ => ⟨S32x11008, .i32⟩
  | .hbm, ⟨3, _⟩ => ⟨S32x11008, .f32⟩
  | .hbm, ⟨4, _⟩ => ⟨S16x4096, .f32⟩
  | .hbm, ⟨5, _⟩ => ⟨S11008x16, .f32⟩
  | .hbm, ⟨6, _⟩ => ⟨S32x11008, .f32⟩
  | .hbm, ⟨7, _⟩ => ⟨S32x128x11008, .f32⟩
  | .hbm, ⟨8, _⟩ => ⟨S4096x11008, .f32⟩
  | .hbm, ⟨9, _⟩ => ⟨S32x128x11008, .f32⟩
  | .hbm, ⟨10, _⟩ => ⟨S4096x11008, .f32⟩
  | .hbm, ⟨11, _⟩ => ⟨S4096x11008, .f32⟩
  | .hbm, ⟨12, _⟩ => ⟨S4096x11008, .f32⟩
  | .hbm, ⟨13, _⟩ => ⟨S4096x11008, .f32⟩
  | .hbm, ⟨14, _⟩ => ⟨S8x16x11008, .f32⟩
  | .hbm, ⟨15, _⟩ => ⟨S8x16x16, .f32⟩
  | .hbm, ⟨16, _⟩ => ⟨S8x16x11008, .f32⟩
  | .hbm, ⟨17, _⟩ => ⟨S_, .f32⟩
  | .hbm, ⟨18, _⟩ => ⟨S8x16x11008, .f32⟩
  | .hbm, ⟨19, _⟩ => ⟨S8x16x11008, .f32⟩
  | .hbm, ⟨20, _⟩ => ⟨S8x16x11008, .f32⟩
  | _, _ => ⟨S8x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  bcast_S_S8x16x11008 : S_.BroadcastsInDim S8x16x11008 (![] : Fin 0 → Fin S8x16x11008.rank)
  dot_S8x16x4096_S4096x11008_S8x16x11008_2_0_01_1_n_n_wf : DotDims.WF S8x16x4096 S4096x11008 S8x16x11008 [2] [0] [0, 1] [1] [] []
  dot_S8x16x4096_S16x4096_S8x16x16_2_1_01_0_n_n_wf : DotDims.WF S8x16x4096 S16x4096 S8x16x16 [2] [1] [0, 1] [0] [] []
  dot_S8x16x16_S11008x16_S8x16x11008_2_1_01_0_n_n_wf : DotDims.WF S8x16x16 S11008x16 S8x16x11008 [2] [1] [0, 1] [0] [] []

variable [Facts₀]

def dot_S8x16x4096_S4096x11008_S8x16x11008_2_0_01_1_n_n : DotDims S8x16x4096 S4096x11008 S8x16x11008 where
  lhsContracting := [2]
  rhsContracting := [0]
  lhsNonContracting := [0, 1]
  rhsNonContracting := [1]
  lhsBatch := []
  rhsBatch := []
  wf := dot_S8x16x4096_S4096x11008_S8x16x11008_2_0_01_1_n_n_wf
def dot_S8x16x4096_S16x4096_S8x16x16_2_1_01_0_n_n : DotDims S8x16x4096 S16x4096 S8x16x16 where
  lhsContracting := [2]
  rhsContracting := [1]
  lhsNonContracting := [0, 1]
  rhsNonContracting := [0]
  lhsBatch := []
  rhsBatch := []
  wf := dot_S8x16x4096_S16x4096_S8x16x16_2_1_01_0_n_n_wf
def dot_S8x16x16_S11008x16_S8x16x11008_2_1_01_0_n_n : DotDims S8x16x16 S11008x16 S8x16x11008 where
  lhsContracting := [2]
  rhsContracting := [1]
  lhsNonContracting := [0, 1]
  rhsNonContracting := [0]
  lhsBatch := []
  rhsBatch := []
  wf := dot_S8x16x16_S11008x16_S8x16x11008_2_1_01_0_n_n_wf

class Facts : Prop extends Facts₀ where

variable [Facts]
-- ==== Proof.Spec.lean ====
/-
  What the quantized linear layer with its low-rank update computes, entry by entry, on the extended reals.

  The inputs: activations `X` [8, 16, 4096]; integer weight codes `W` [4096, 11008]; per group of 128 consecutive
  input features a row of integer zero points `Z` [32, 11008] and a row of scales `Sc` [32, 11008]; the low-rank
  factors `A` [16, 4096] and `B` [11008, 16].

  The dequantized weight is `(W i o - Z (i / 128) o) * Sc (i / 128) o`, the integers read exactly. The result at
  token (b, s) and output feature o is

      ∑ i, X b s i * wdeq i o  +  (∑ r, (∑ i, X b s i * A r i) * B o r) * 2.

  The sum over the 4096 input features is a sum over 32 groups of 128; taking it group by group only
  re-associates it.
-/
import Idealize.ShloMosaic.PureOps.Ideal.Laws
import Idealize.ShloMosaic.Lib.ValueIdx

noncomputable section

namespace Cert.QLora

open Idealize.ShloMosaic Idealize.ShloMosaic.ValueIdx
open scoped BigOperators

/-- The quantization group of input feature `i`: 128 consecutive features share a zero point and a scale. -/
def grp (i : Fin 4096) : Fin 32 := ⟨i.val / 128, by have := i.isLt; omega⟩

/-- An integer code read exactly as a real number. -/
def code (b : BitVec 32) : EReal := ((b.toInt : ℝ) : EReal)

/-- The dequantized weight at input feature `i`, output feature `o`. -/
def wdeq (W : (⟨2, ![4096, 11008]⟩ : Shape).Idx → BitVec 32) (Z : (⟨2, ![32, 11008]⟩ : Shape).Idx → BitVec 32)
    (Sc : (⟨2, ![32, 11008]⟩ : Shape).Idx → EReal) (i : Fin 4096) (o : Fin 11008) : EReal :=
  (code (W (ix2 i o)) - code (Z (ix2 (grp i) o))) * Sc (ix2 (grp i) o)

/-- The low-rank projection of token (b, s) on direction `r`. -/
def proj (X : (⟨3, ![8, 16, 4096]⟩ : Shape).Idx → EReal) (A : (⟨2, ![16, 4096]⟩ : Shape).Idx → EReal)
    (b : Fin 8) (s : Fin 16) (r : Fin 16) : EReal :=
  ∑ i : Fin 4096, X (ix3 b s i) * A (ix2 r i)

/-- The low-rank update's scaling, 32 / 16. -/
def two : EReal := Ideal.ofBits .f32 0x40000000#32

/-- The layer's result at token (b, s), output feature `o`. -/
def result (X : (⟨3, ![8, 16, 4096]⟩ : Shape).Idx → EReal) (W : (⟨2, ![4096, 11008]⟩ : Shape).Idx → BitVec 32)
    (Z : (⟨2, ![32, 11008]⟩ : Shape).Idx → BitVec 32) (Sc : (⟨2, ![32, 11008]⟩ : Shape).Idx → EReal)
    (A : (⟨2, ![16, 4096]⟩ : Shape).Idx → EReal) (B : (⟨2, ![11008, 16]⟩ : Shape).Idx → EReal) :
    (⟨3, ![8, 16, 11008]⟩ : Shape).Idx → EReal := fun j =>
  (∑ i : Fin 4096, X (ix3 (j 0) (j 1) i) * wdeq W Z Sc i (j 2))
    + (∑ r : Fin 16, proj X A (j 0) (j 1) r * B (ix2 (j 2) r)) * two

end Cert.QLora

end
-- ==== Proof.RefSide.lean ====
/-
  The reference program's result is the layer's result, entry by entry.

  The reference repeats each group's zero points and scales 128 times along the input axis (a broadcast to
  [32, 128, 11008] re-laid as [4096, 11008]), so row `i` of the repeated array is row `i / 128` of the original;
  it forms the dequantized weight, contracts the activations with it over the 4096 input features, contracts the
  activations with `A` and the outcome with `B`, doubles that and adds. Read at an entry this is the formula of
  `Cert.QLora.result` term for term.
-/
import proofs.«117057_j36704790511804_1_alg».proof.Proof.Gen.ReferenceIdeal.Read
import proofs.«117057_j36704790511804_1_alg».proof.Proof.Spec

noncomputable section

namespace Cert.QLora.Ref

open Cert.ReferenceIdeal Cert.ReferenceIdeal.Read Idealize.ShloMosaic Idealize.ShloMosaic.ValueIdx
open scoped BigOperators

/-- The base product reads the activations at token (b, s), input feature k, -/
theorem lidx8 (b : Fin 8) (s : Fin 16) (o : Fin 11008) (k : Fin 4096) : lidx_main_v8 (ix3 b s o) k = ix3 b s k :=
  funext fun a => match a with | ⟨0, _⟩ => rfl | ⟨1, _⟩ => rfl | ⟨2, _⟩ => rfl

/-- and the dequantized weight at input feature k, output feature o. -/
theorem ridx8 (b : Fin 8) (s : Fin 16) (o : Fin 11008) (k : Fin 4096) : ridx_main_v8 (ix3 b s o) k = ix2 k o :=
  funext fun a => match a with | ⟨0, _⟩ => rfl | ⟨1, _⟩ => rfl

/-- Row `k` of a per-group array repeated 128 times is row `k / 128` of the array. -/
theorem rep_idx (k : Fin 4096) (o : Fin 11008) : idx_main_v1 (idx_main_v2 (ix2 k o)) = ix2 (grp k) o := by
  have hk := k.isLt
  have ho := o.isLt
  funext a
  match a with
  | ⟨0, _⟩ => exact Fin.ext (show (k.val * 11008 + o.val) / 1409024 = k.val / 128 by omega)
  | ⟨1, _⟩ => exact Fin.ext (show (k.val * 11008 + o.val) % 11008 = o.val by omega)

/-- The same for the scales' copy. -/
theorem rep_idx' (k : Fin 4096) (o : Fin 11008) : idx_main_v3 (idx_main_v4 (ix2 k o)) = ix2 (grp k) o := by
  have hk := k.isLt
  have ho := o.isLt
  funext a
  match a with
  | ⟨0, _⟩ => exact Fin.ext (show (k.val * 11008 + o.val) / 1409024 = k.val / 128 by omega)
  | ⟨1, _⟩ => exact Fin.ext (show (k.val * 11008 + o.val) % 11008 = o.val by omega)

/-- The low-rank product reads the projection at token (b, s), direction r, -/
theorem lidx10 (b : Fin 8) (s : Fin 16) (o : Fin 11008) (r : Fin 16) : lidx_main_v10 (ix3 b s o) r = ix3 b s r :=
  funext fun a => match a with | ⟨0, _⟩ => rfl | ⟨1, _⟩ => rfl | ⟨2, _⟩ => rfl

/-- and `B` at output feature o, direction r. -/
theorem ridx10 (b : Fin 8) (s : Fin 16) (o : Fin 11008) (r : Fin 16) : ridx_main_v10 (ix3 b s o) r = ix2 o r :=
  funext fun a => match a with | ⟨0, _⟩ => rfl | ⟨1, _⟩ => rfl

/-- The projection reads the activations at token (b, s), input feature k, -/
theorem lidx9 (b : Fin 8) (s : Fin 16) (r : Fin 16) (k : Fin 4096) : lidx_main_v9 (ix3 b s r) k = ix3 b s k :=
  funext fun a => match a with | ⟨0, _⟩ => rfl | ⟨1, _⟩ => rfl | ⟨2, _⟩ => rfl

/-- and `A` at direction r, input feature k. -/
theorem ridx9 (b : Fin 8) (s : Fin 16) (r : Fin 16) (k : Fin 4096) : ridx_main_v9 (ix3 b s r) k = ix2 r k :=
  funext fun a => match a with | ⟨0, _⟩ => rfl | ⟨1, _⟩ => rfl

/-- The dequantized weight as the reference forms it. -/
theorem weight_apply (x1 : (⟨S4096x11008, .i32⟩ : BufTy).Contents (Elt Ideal)) (x2 : (⟨S32x11008, .i32⟩ : BufTy).Contents (Elt Ideal))
    (x3 : (⟨S32x11008, .f32⟩ : BufTy).Contents (Elt Ideal)) (k : Fin 4096) (o : Fin 11008) :
    val_main_v7 (F := Ideal) x1 x2 x3 (ix2 k o) = wdeq x1 x2 x3 k o := by
  rw [val_main_v7_apply, val_main_v6_apply, val_main_v5_apply, val_main_v2_apply, val_main_v1_apply, val_main_v0_apply,
    val_main_v4_apply, val_main_v3_apply, rep_idx, rep_idx']
  rfl

/-- The projection as the reference forms it. -/
theorem proj_apply (x0 : (⟨S8x16x4096, .f32⟩ : BufTy).Contents (Elt Ideal)) (x4 : (⟨S16x4096, .f32⟩ : BufTy).Contents (Elt Ideal))
    (b : Fin 8) (s : Fin 16) (r : Fin 16) :
    val_main_v9 (F := Ideal) x0 x4 (ix3 b s r) = proj x0 x4 b s r := by
  rw [val_main_v9_apply]
  exact Finset.sum_congr rfl fun k _ => by rw [lidx9, ridx9]

/-- The reference's result is the layer's result. -/
theorem result_eq (x0 : (⟨S8x16x4096, .f32⟩ : BufTy).Contents (Elt Ideal)) (x1 : (⟨S4096x11008, .i32⟩ : BufTy).Contents (Elt Ideal))
    (x2 : (⟨S32x11008, .i32⟩ : BufTy).Contents (Elt Ideal)) (x3 : (⟨S32x11008, .f32⟩ : BufTy).Contents (Elt Ideal))
    (x4 : (⟨S16x4096, .f32⟩ : BufTy).Contents (Elt Ideal)) (x5 : (⟨S11008x16, .f32⟩ : BufTy).Contents (Elt Ideal)) :
    val_main_v13 (F := Ideal) x0 x1 x2 x3 x4 x5 = result x0 x1 x2 x3 x4 x5 := by
  funext i
  obtain ⟨b, s, o, rfl⟩ : ∃ (b : Fin 8) (s : Fin 16) (o : Fin 11008), i = ix3 b s o := ⟨i 0, i 1, i 2, eq_ix3 i⟩
  rw [val_main_v13_apply, val_main_v8_apply, val_main_v12_apply, val_main_v10_apply, val_main_v11_apply, val_main_cst_apply]
  have e8 : (∑ k : Fin 4096, x0 (lidx_main_v8 (ix3 b s o) k) * val_main_v7 (F := Ideal) x1 x2 x3 (ridx_main_v8 (ix3 b s o) k))
      = ∑ k : Fin 4096, x0 (ix3 b s k) * wdeq x1 x2 x3 k o :=
    Finset.sum_congr rfl fun k _ => by rw [lidx8, ridx8, weight_apply]
  have e10 : (∑ r : Fin 16, val_main_v9 (F := Ideal) x0 x4 (lidx_main_v10 (ix3 b s o) r) * x5 (ridx_main_v10 (ix3 b s o) r))
      = ∑ r : Fin 16, proj x0 x4 b s r * x5 (ix2 o r) :=
    Finset.sum_congr rfl fun r _ => by rw [lidx10, ridx10, proj_apply]
  rw [e8, e10]
  rfl

end Cert.QLora.Ref

end
-- ==== Proof.Pieces.lean ====
/-
  What one run of the kernel body leaves behind, as values of what it found.

  The accumulator the kernel carries between grid points is overwritten whole at every point. At the first group of a
  column tile the body first stores the zero block and then adds that group's product to what it reads back, so it
  leaves the update of the zero block; at every other group it leaves the update of what the point before left. At
  the last group it also stores the output block: the low-rank term added to the accumulator it has just updated.
-/
import proofs.«117057_j36704790511804_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- First group of a column tile: the accumulator ends at the update of the zero block. -/
theorem acc_first (c : Dev nD) (i : grid0.Coords) (arg2 : Memref sig .tc .vmem S128x128 .f32) (harg2 : arg2.IsWhole) (arg3 : Memref sig .tc .vmem S128x5504 .i32) (harg3 : arg3.IsWhole) (arg4 : Memref sig .tc .vmem S1x1x5504 .i32) (harg4 : arg4.IsWhole) (arg5 : Memref sig .tc .vmem S1x1x5504 .f32) (harg5 : arg5.IsWhole) (arg6 : Memref sig .tc .vmem S128x16 .f32) (harg6 : arg6.IsWhole) (arg7 : Memref sig .tc .vmem S5504x16 .f32) (harg7 : arg7.IsWhole) (arg8 : Memref sig .tc .vmem S128x5504 .f32) (harg8 : arg8.IsWhole) (arg9 : Memref sig .tc .vmem S128x5504 .f32) (harg9 : arg9.IsWhole) (hc0 : cond0_0 i) (hc1 : ¬cond0_1 i) (x0 : Vec F S128x128 .f32) (x1 : Vec F S128x5504 .i32) (x2 : Vec F S1x1x5504 .i32) (x3 : Vec F S1x1x5504 .f32) (x4 : Vec F S128x16 .f32) (x5 : Vec F S5504x16 .f32) :
    sout0_A_0 c i arg2 harg2 arg3 harg3 arg4 harg4 arg5 harg5 arg6 harg6 arg7 harg7 arg8 harg8 arg9 harg9 hc0 hc1 x0 x1 x2 x3 x4 x5 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S128x5504) hz, View.readCov_unit_zero (S := S128x5504) _ hz]
  simp only [View.readAt_eq_ld, harg2.read_unread, harg3.read_unread, harg4.read_unread, harg5.read_unread, harg6.read_unread, harg7.read_unread, harg9.read_unread, View.ld_unit_zero (S := S128x128) hz, View.ld_unit_zero (S := S128x5504) hz, View.ld_unit_zero (S := S1x1x5504) hz3, View.ld_unit_zero (S := S128x16) hz, View.ld_unit_zero (S := S5504x16) hz]

/-- A middle group: the accumulator ends at the update of what the point before left. -/
theorem acc_mid (c : Dev nD) (i : grid0.Coords) (arg2 : Memref sig .tc .vmem S128x128 .f32) (harg2 : arg2.IsWhole) (arg3 : Memref sig .tc .vmem S128x5504 .i32) (harg3 : arg3.IsWhole) (arg4 : Memref sig .tc .vmem S1x1x5504 .i32) (harg4 : arg4.IsWhole) (arg5 : Memref sig .tc .vmem S1x1x5504 .f32) (harg5 : arg5.IsWhole) (arg6 : Memref sig .tc .vmem S128x16 .f32) (harg6 : arg6.IsWhole) (arg7 : Memref sig .tc .vmem S5504x16 .f32) (harg7 : arg7.IsWhole) (arg8 : Memref sig .tc .vmem S128x5504 .f32) (harg8 : arg8.IsWhole) (arg9 : Memref sig .tc .vmem S128x5504 .f32) (harg9 : arg9.IsWhole) (hc0 : ¬cond0_0 i) (hc1 : ¬cond0_1 i) (x0 : Vec F S128x128 .f32) (x1 : Vec F S128x5504 .i32) (x2 : Vec F S1x1x5504 .i32) (x3 : Vec F S1x1x5504 .f32) (x4 : Vec F S128x16 .f32) (x5 : Vec F S5504x16 .f32) (xs0 : Vec F S128x5504 .f32) :
    sout0_B_0 c i arg2 harg2 arg3 harg3 arg4 harg4 arg5 harg5 arg6 harg6 arg7 harg7 arg8 harg8 arg9 harg9 hc0 hc1 x0 x1 x2 x3 x4 x5 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg9.read_unread, View.ld_unit_zero (S := S128x128) hz, View.ld_unit_zero (S := S128x5504) hz, View.ld_unit_zero (S := S1x1x5504) hz3, View.ld_unit_zero (S := S128x16) hz, View.ld_unit_zero (S := S5504x16) hz]

/-- The last group: the accumulator is updated the same way, -/
theorem acc_last (c : Dev nD) (i : grid0.Coords) (arg2 : Memref sig .tc .vmem S128x128 .f32) (harg2 : arg2.IsWhole) (arg3 : Memref sig .tc .vmem S128x5504 .i32) (harg3 : arg3.IsWhole) (arg4 : Memref sig .tc .vmem S1x1x5504 .i32) (harg4 : arg4.IsWhole) (arg5 : Memref sig .tc .vmem S1x1x5504 .f32) (harg5 : arg5.IsWhole) (arg6 : Memref sig .tc .vmem S128x16 .f32) (harg6 : arg6.IsWhole) (arg7 : Memref sig .tc .vmem S5504x16 .f32) (harg7 : arg7.IsWhole) (arg8 : Memref sig .tc .vmem S128x5504 .f32) (harg8 : arg8.IsWhole) (arg9 : Memref sig .tc .vmem S128x5504 .f32) (harg9 : arg9.IsWhole) (hc0 : ¬cond0_0 i) (hc1 : cond0_1 i) (x0 : Vec F S128x128 .f32) (x1 : Vec F S128x5504 .i32) (x2 : Vec F S1x1x5504 .i32) (x3 : Vec F S1x1x5504 .f32) (x4 : Vec F S128x16 .f32) (x5 : Vec F S5504x16 .f32) (xs0 : Vec F S128x5504 .f32) :
    sout0_C_0 c i arg2 harg2 arg3 harg3 arg4 harg4 arg5 harg5 arg6 harg6 arg7 harg7 arg8 harg8 arg9 harg9 hc0 hc1 x0 x1 x2 x3 x4 x5 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg9.read_unread, View.ld_unit_zero (S := S128x128) hz, View.ld_unit_zero (S := S128x5504) hz, View.ld_unit_zero (S := S1x1x5504) hz3, View.ld_unit_zero (S := S128x16) hz, View.ld_unit_zero (S := S5504x16) hz]

/-- and the output block is the low-rank term added to the updated accumulator. -/
theorem out_last (c : Dev nD) (i : grid0.Coords) (arg2 : Memref sig .tc .vmem S128x128 .f32) (harg2 : arg2.IsWhole) (arg3 : Memref sig .tc .vmem S128x5504 .i32) (harg3 : arg3.IsWhole) (arg4 : Memref sig .tc .vmem S1x1x5504 .i32) (harg4 : arg4.IsWhole) (arg5 : Memref sig .tc .vmem S1x1x5504 .f32) (harg5 : arg5.IsWhole) (arg6 : Memref sig .tc .vmem S128x16 .f32) (harg6 : arg6.IsWhole) (arg7 : Memref sig .tc .vmem S5504x16 .f32) (harg7 : arg7.IsWhole) (arg8 : Memref sig .tc .vmem S128x5504 .f32) (harg8 : arg8.IsWhole) (arg9 : Memref sig .tc .vmem S128x5504 .f32) (harg9 : arg9.IsWhole) (hc0 : ¬cond0_0 i) (hc1 : cond0_1 i) (x0 : Vec F S128x128 .f32) (x1 : Vec F S128x5504 .i32) (x2 : Vec F S1x1x5504 .i32) (x3 : Vec F S1x1x5504 .f32) (x4 : Vec F S128x16 .f32) (x5 : Vec F S5504x16 .f32) (xs0 : Vec F S128x5504 .f32) :
    out0_C_6 c i arg2 harg2 arg3 harg3 arg4 harg4 arg5 harg5 arg6 harg6 arg7 harg7 arg8 harg8 arg9 harg9 hc0 hc1 x0 x1 x2 x3 x4 x5 xs0 = k0_pay3 x4 x5 (k0_pay2 x0 x1 x2 x3 xs0) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg9.read_unread, View.ld_unit_zero (S := S128x128) hz, View.ld_unit_zero (S := S128x5504) hz, View.ld_unit_zero (S := S1x1x5504) hz3, View.ld_unit_zero (S := S128x16) hz, View.ld_unit_zero (S := S5504x16) hz, View.readCov_unit_zero (S := S128x5504) _ hz]

end Cert.KernelIdeal.Pieces

end
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.PayAt.lean ====
/-
  The kernel body's arithmetic, read at an entry on the extended reals.

  At a grid point the body holds a [128, 128] block of activations `x`, a [128, 5504] block of weight codes `w`, one
  row of zero points `z` and one row of scales `s` for that group (each [1, 1, 5504]), and the running accumulator
  `acc` [128, 5504]. It leaves

      acc (p, q) + ∑ j, x (p, j) * ((w (j, q) - z q) * s q)

  in the accumulator: one more group of 128 input features added to the base product. At the last group it also
  reads the [128, 16] projection `h` and a [5504, 16] block of `B`, and writes out

      acc (p, q) + (∑ r, h (p, r) * B (q, r)) * 2.

  Narrowing a value to a shorter float format is the identity on the extended reals, so the products are exact.
-/
import proofs.«117057_j36704790511804_1_alg».proof.Proof.Gen.KernelIdeal.Skeleton
import proofs.«117057_j36704790511804_1_alg».proof.Proof.Spec
import proofs.«117057_j36704790511804_1_alg».proof.Proof.LibPlainDot
import Idealize.ShloMosaic.Lib.Pipeline.Value
import Idealize.ShloMosaic.Lib.ValueLayout

noncomputable section

namespace Cert.KernelIdeal.PayAt

open Cert.KernelIdeal Cert.KernelIdeal.Gen Idealize.ShloMosaic Idealize.ShloMosaic.ValueIdx
open scoped BigOperators

/-- The zero block the first group starts from is zero at every entry. -/
theorem zero_at (j : S128x5504.Idx) : k0_pay1 (F := Ideal) j = 0 := by
  unfold k0_pay1
  rw [shapeCast_self]
  exact Ideal.ofBits_zero_f32

/-- One group's dequantized weight row as the body forms it, at the entry (j, q). -/
theorem weight_at (w : Vec Ideal S128x5504 .i32) (z : Vec Ideal S1x1x5504 .i32) (s : Vec Ideal S1x1x5504 .f32)
    (j : Fin 128) (q : Fin 5504) :
    (truncf .bf16 (mulf (subf (sitofp .f32 w) (broadcastTo S128x5504 (sitofp (F := Ideal) .f32 (shapeCast S1x5504 z shapeCasts_S1x1x5504_S1x5504)) broadcasts_S1x5504_S128x5504))
        (broadcastTo S128x5504 (shapeCast S1x5504 s shapeCasts_S1x1x5504_S1x5504) broadcasts_S1x5504_S128x5504)) bitsLt_bf16_f32 : FVec Ideal S128x5504 .bf16) (ix2 j q)
      = (QLora.code (w (ix2 j q)) - QLora.code (z (ix3 (0 : Fin 1) (0 : Fin 1) q))) * s (ix3 (0 : Fin 1) (0 : Fin 1) q) := by
  rw [truncf_apply, mulf_apply, subf_apply, broadcastTo_1b_ab_apply, broadcastTo_1b_ab_apply, sitofp_apply, sitofp_apply,
    shapeCast_1ab_ab_apply, shapeCast_1ab_ab_apply]
  rfl

/-- The accumulator after one more group. -/
theorem acc_at (x : Vec Ideal S128x128 .f32) (w : Vec Ideal S128x5504 .i32) (z : Vec Ideal S1x1x5504 .i32)
    (s : Vec Ideal S1x1x5504 .f32) (acc : Vec Ideal S128x5504 .f32) (p : Fin 128) (q : Fin 5504) :
    k0_pay2 (F := Ideal) x w z s acc (ix2 p q)
      = acc (ix2 p q) + ∑ j : Fin 128, x (ix2 p j)
          * ((QLora.code (w (ix2 j q)) - QLora.code (z (ix3 (0 : Fin 1) (0 : Fin 1) q))) * s (ix3 (0 : Fin 1) (0 : Fin 1) q)) := by
  unfold k0_pay2
  rw [shapeCast_self, addf_apply]
  refine congrArg (acc (ix2 p q) + ·) ?_
  refine (PlainDot.matmul_zero_apply dot_S128x128_S128x5504_S128x5504_1_0_0_1_n_n rfl rfl rfl rfl rfl rfl none _ _ p q).trans ?_
  refine Finset.sum_congr rfl fun j _ => ?_
  rw [weight_at, truncf_apply, shapeCast_self]

/-- What the last group's point writes out. -/
theorem out_at (h : Vec Ideal S128x16 .f32) (b : Vec Ideal S5504x16 .f32) (acc : Vec Ideal S128x5504 .f32)
    (p : Fin 128) (q : Fin 5504) :
    k0_pay3 (F := Ideal) h b acc (ix2 p q)
      = acc (ix2 p q) + (∑ r : Fin 16, h (ix2 p r) * b (ix2 q r)) * QLora.two := by
  unfold k0_pay3
  rw [addf_apply, mulf_apply, broadcast_apply]
  refine congrArg (acc (ix2 p q) + ·) ?_
  refine congrArg (· * QLora.two) ?_
  refine (PlainDot.matmul_zero_apply dot_S128x16_S16x5504_S128x5504_1_0_0_1_n_n rfl rfl rfl rfl rfl rfl none _ _ p q).trans ?_
  refine Finset.sum_congr rfl fun r _ => ?_
  rw [transpose_ix2_apply, truncf_apply, truncf_apply, shapeCast_self]

end Cert.KernelIdeal.PayAt

end
-- ==== Proof.Blocks.lean ====
/-
  Where each block of the kernel sits in its array, and what the arrays hold when the kernel starts.

  The grid has 2 x 32 points; point `t` works on column tile `t / 32` (5504 output features) and on group
  `t % 32` (128 input features). Its blocks: activations, rows 0..127 and input features `128 (t % 32) + j`;
  weight codes, the same input features and output features `5504 (t / 32) + q`; the group's row of zero points and of
  scales at those output features; the whole projection; the rows `5504 (t / 32) + q` of `B`.

  Before the kernel the program lays the activations out as [128, 4096] (token `16 b + s` in row `p`), forms the
  projection `h = x · Aᵀ` [128, 16], and gives the zero points and scales a unit middle axis [32, 1, 11008].
-/
import proofs.«117057_j36704790511804_1_alg».proof.Proof.Gen.KernelIdeal.Frame
import proofs.«117057_j36704790511804_1_alg».proof.Proof.LibPlainDot
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx
open scoped BigOperators

variable {F : FTy → Type} [FloatOps F]
variable (m : (ℓ : Loc nD τ sig) → Buf (Elt F) ℓ)

/-! ## The arrays the kernel reads, and its blocks, by name -/

abbrev xarr (c : Dev nD) : Vec F S128x4096 .f32 := V m c main_v0
abbrev warr (c : Dev nD) : Vec F S4096x11008 .i32 := V m c main_arg1
abbrev zarr (c : Dev nD) : Vec F S32x1x11008 .i32 := V m c main_v3
abbrev sarr (c : Dev nD) : Vec F S32x1x11008 .f32 := V m c main_v4
abbrev harr (c : Dev nD) : Vec F S128x16 .f32 := V m c main_v2
abbrev barr (c : Dev nD) : Vec F S11008x16 .f32 := V m c main_arg5

abbrev xblk (c : Dev nD) (t : Fin cfg0.N) : Vec F S128x128 .f32 := iblk m c 0 t
abbrev wblk (c : Dev nD) (t : Fin cfg0.N) : Vec F S128x5504 .i32 := iblk m c 1 t
abbrev zblk (c : Dev nD) (t : Fin cfg0.N) : Vec F S1x1x5504 .i32 := iblk m c 2 t
abbrev sblk (c : Dev nD) (t : Fin cfg0.N) : Vec F S1x1x5504 .f32 := iblk m c 3 t
abbrev hblk (c : Dev nD) (t : Fin cfg0.N) : Vec F S128x16 .f32 := iblk m c 4 t
abbrev bblk (c : Dev nD) (t : Fin cfg0.N) : Vec F S5504x16 .f32 := iblk m c 5 t

/-- The block indices at point `t`: the group is `t % 32`, the column tile `t / 32`. -/
theorem idx_facts : ∀ t : Fin cfg0.N,
    win0_0.index t (0 : Fin 2) = 0 ∧ win0_0.index t (1 : Fin 2) = t.val % 32
    ∧ win0_1.index t (0 : Fin 2) = t.val % 32 ∧ win0_1.index t (1 : Fin 2) = t.val / 32
    ∧ win0_2.index t (0 : Fin 3) = t.val % 32 ∧ win0_2.index t (1 : Fin 3) = 0 ∧ win0_2.index t (2 : Fin 3) = t.val / 32
    ∧ win0_3.index t (0 : Fin 3) = t.val % 32 ∧ win0_3.index t (1 : Fin 3) = 0 ∧ win0_3.index t (2 : Fin 3) = t.val / 32
    ∧ win0_4.index t (0 : Fin 2) = 0 ∧ win0_4.index t (1 : Fin 2) = 0
    ∧ win0_5.index t (0 : Fin 2) = t.val / 32 ∧ win0_5.index t (1 : Fin 2) = 0
    ∧ win0_6.index t (0 : Fin 2) = 0 ∧ win0_6.index t (1 : Fin 2) = t.val / 32 :=
  (by decide +kernel : ∀ t : Fin grid0.N, _)

theorem lt64 (t : Fin cfg0.N) : t.val < 64 := lt_of_lt_of_eq t.isLt (show cfg0.N = 64 from N_0)

/-- Input feature `j` of group `t % 32`. -/
abbrev feat (t : Fin cfg0.N) (j : Fin 128) : Fin 4096 := ⟨128 * (t.val % 32) + j.val, by have := j.isLt; omega⟩
/-- Output feature `q` of column tile `t / 32`. -/
abbrev col (t : Fin cfg0.N) (q : Fin 5504) : Fin 11008 := ⟨5504 * (t.val / 32) + q.val, by have := q.isLt; have := lt64 t; omega⟩
/-- The group of point `t`. -/
abbrev grpOf (t : Fin cfg0.N) : Fin 32 := ⟨t.val % 32, Nat.mod_lt _ (by decide)⟩

theorem xblk_at (c : Dev nD) (t : Fin cfg0.N) (p : Fin 128) (j : Fin 128) :
    xblk m c t (ix2 p j) = xarr m c (ix2 p (feat t j)) := by
  obtain ⟨e0, e1, -⟩ := idx_facts t
  show V m c main_v0 (((cfg0.win 0).blk t).view.emb (ix2 p j)) = V m c main_v0 _
  refine congrArg (V m c main_v0) ?_
  funext a; apply Fin.ext
  match a with
  | ⟨0, _⟩ => show win0_0.index t (0 : Fin 2) * 128 + 1 * p.val = p.val; omega
  | ⟨1, _⟩ => show win0_0.index t (1 : Fin 2) * 128 + 1 * j.val = 128 * (t.val % 32) + j.val; omega

theorem wblk_at (c : Dev nD) (t : Fin cfg0.N) (j : Fin 128) (q : Fin 5504) :
    wblk m c t (ix2 j q) = warr m c (ix2 (feat t j) (col t q)) := by
  obtain ⟨-, -, e0, e1, -⟩ := idx_facts t
  show V m c main_arg1 (((cfg0.win 1).blk t).view.emb (ix2 j q)) = V m c main_arg1 _
  refine congrArg (V m c main_arg1) ?_
  funext a; apply Fin.ext
  match a with
  | ⟨0, _⟩ => show win0_1.index t (0 : Fin 2) * 128 + 1 * j.val = 128 * (t.val % 32) + j.val; omega
  | ⟨1, _⟩ => show win0_1.index t (1 : Fin 2) * 5504 + 1 * q.val = 5504 * (t.val / 32) + q.val; omega

theorem zblk_at (c : Dev nD) (t : Fin cfg0.N) (q : Fin 5504) :
    zblk m c t (ix3 (0 : Fin 1) (0 : Fin 1) q) = zarr m c (ix3 (grpOf t) (0 : Fin 1) (col t q)) := by
  obtain ⟨-, -, -, -, e0, e1, e2, -⟩ := idx_facts t
  show V m c main_v3 (((cfg0.win 2).blk t).view.emb (ix3 (0 : Fin 1) (0 : Fin 1) q)) = V m c main_v3 _
  refine congrArg (V m c main_v3) ?_
  funext a; apply Fin.ext
  match a with
  | ⟨0, _⟩ => show win0_2.index t (0 : Fin 3) * 1 + 1 * 0 = t.val % 32; omega
  | ⟨1, _⟩ => show win0_2.index t (1 : Fin 3) * 1 + 1 * 0 = 0; omega
  | ⟨2, _⟩ => show win0_2.index t (2 : Fin 3) * 5504 + 1 * q.val = 5504 * (t.val / 32) + q.val; omega

theorem sblk_at (c : Dev nD) (t : Fin cfg0.N) (q : Fin 5504) :
    sblk m c t (ix3 (0 : Fin 1) (0 : Fin 1) q) = sarr m c (ix3 (grpOf t) (0 : Fin 1) (col t q)) := by
  obtain ⟨-, -, -, -, -, -, -, e0, e1, e2, -⟩ := idx_facts t
  show V m c main_v4 (((cfg0.win 3).blk t).view.emb (ix3 (0 : Fin 1) (0 : Fin 1) q)) = V m c main_v4 _
  refine congrArg (V m c main_v4) ?_
  funext a; apply Fin.ext
  match a with
  | ⟨0, _⟩ => show win0_3.index t (0 : Fin 3) * 1 + 1 * 0 = t.val % 32; omega
  | ⟨1, _⟩ => show win0_3.index t (1 : Fin 3) * 1 + 1 * 0 = 0; omega
  | ⟨2, _⟩ => show win0_3.index t (2 : Fin 3) * 5504 + 1 * q.val = 5504 * (t.val / 32) + q.val; omega

theorem hblk_at (c : Dev nD) (t : Fin cfg0.N) (p : Fin 128) (r : Fin 16) :
    hblk m c t (ix2 p r) = harr m c (ix2 p r) := by
  obtain ⟨-, -, -, -, -, -, -, -, -, -, e0, e1, -⟩ := idx_facts t
  show V m c main_v2 (((cfg0.win 4).blk t).view.emb (ix2 p r)) = V m c main_v2 _
  refine congrArg (V m c main_v2) ?_
  funext a; apply Fin.ext
  match a with
  | ⟨0, _⟩ => show win0_4.index t (0 : Fin 2) * 128 + 1 * p.val = p.val; omega
  | ⟨1, _⟩ => show win0_4.index t (1 : Fin 2) * 16 + 1 * r.val = r.val; omega

theorem bblk_at (c : Dev nD) (t : Fin cfg0.N) (q : Fin 5504) (r : Fin 16) :
    bblk m c t (ix2 q r) = barr m c (ix2 (col t q) r) := by
  obtain ⟨-, -, -, -, -, -, -, -, -, -, -, -, e0, e1, -⟩ := idx_facts t
  show V m c main_arg5 (((cfg0.win 5).blk t).view.emb (ix2 q r)) = V m c main_arg5 _
  refine congrArg (V m c main_arg5) ?_
  funext a; apply Fin.ext
  match a with
  | ⟨0, _⟩ => show win0_5.index t (0 : Fin 2) * 5504 + 1 * q.val = 5504 * (t.val / 32) + q.val; omega
  | ⟨1, _⟩ => show win0_5.index t (1 : Fin 2) * 16 + 1 * r.val = r.val; omega

/-! ## What the host lines before the kernel wrote -/

theorem xarr_eq (c : Dev nD) :
    xarr m c = shapeCast S128x4096 (m ((c : Thread nD τ).loc main_arg0)) shapeCasts_S8x16x4096_S128x4096 := by
  show StableHlo.after hostOps0 (fun b => m (c, b)) (Proc.devRef .tc main_v0) = _
  after_results <;> rfl

theorem harr_eq (c : Dev nD) :
    harr m c = Host.dotGeneral dot_S128x4096_S4096x16_S128x16_1_0_0_1_n_n none
      (shapeCast S128x4096 (m ((c : Thread nD τ).loc main_arg0)) shapeCasts_S8x16x4096_S128x4096)
      (transpose S4096x16 [1, 0] (m ((c : Thread nD τ).loc main_arg4)) transposes_S16x4096_S4096x16_1_0) := by
  show StableHlo.after hostOps0 (fun b => m (c, b)) (Proc.devRef .tc main_v2) = _
  after_results <;> rfl

theorem zarr_eq (c : Dev nD) :
    zarr m c = broadcastInDim S32x1x11008 ![0, 2] bcast_S32x11008_S32x1x11008_0_2 (m ((c : Thread nD τ).loc main_arg2)) := by
  show StableHlo.after hostOps0 (fun b => m (c, b)) (Proc.devRef .tc main_v3) = _
  after_results <;> rfl

theorem sarr_eq (c : Dev nD) :
    sarr m c = broadcastInDim S32x1x11008 ![0, 2] bcast_S32x11008_S32x1x11008_0_2 (m ((c : Thread nD τ).loc main_arg3)) := by
  show StableHlo.after hostOps0 (fun b => m (c, b)) (Proc.devRef .tc main_v4) = _
  after_results <;> rfl

theorem warr_eq (c : Dev nD) : warr m c = m ((c : Thread nD τ).loc main_arg1) := V_main_arg1 m c

theorem barr_eq (c : Dev nD) : barr m c = m ((c : Thread nD τ).loc main_arg5) := V_main_arg5 m c

end Cert.KernelIdeal.Blocks

end
-- ==== Proof.LibBlockPrefixSum.lean ====
/-
  A sum over `Fin N` taken block by block, in any commutative monoid.

  For a block width `B`, `blockPrefix B f n` is the sum of `f` over the first `n` blocks, that is over the
  positions below `B * n`. It starts at zero, grows by one block at a time,

      blockPrefix B f (n + 1) = blockPrefix B f n + ∑ j : Fin B, f (B * n + j),

  and once the blocks exhaust the range (`B * n = N`) it is the whole sum `∑ k : Fin N, f k`. Only the
  commutativity and associativity of the addition are used, so the statements hold on the extended reals,
  infinite entries included.

  How it is obtained: `f` is continued by zero beyond `N`, which makes the prefix a sum over an initial
  segment of the naturals; an initial segment of length `B * n + B` splits into the one of length `B * n`
  and a shifted segment of length `B`, and on positions below `N` the continuation is `f` itself.
-/
import Mathlib.Algebra.BigOperators.Fin

namespace BlockPrefixSum

open Finset
open scoped BigOperators

variable {M : Type*} [AddCommMonoid M] {N : ℕ}

/-- `f` continued by zero beyond `N`. -/
def continued (f : Fin N → M) (k : ℕ) : M := if h : k < N then f ⟨k, h⟩ else 0

/-- On a position below `N` the continuation is `f`. -/
theorem continued_of_lt (f : Fin N → M) (k : ℕ) (h : k < N) : continued f k = f ⟨k, h⟩ := dif_pos h

/-- The sum of `f` over its first `n` blocks of width `B`. -/
def blockPrefix (B : ℕ) (f : Fin N → M) (n : ℕ) : M := ∑ k ∈ range (B * n), continued f k

/-- No block: the empty sum. -/
theorem blockPrefix_zero (B : ℕ) (f : Fin N → M) : blockPrefix B f 0 = 0 := by
  unfold blockPrefix
  rw [Nat.mul_zero, range_zero, sum_empty]

/-- One more block: the prefix grows by that block's sum. -/
theorem blockPrefix_succ (B : ℕ) (f : Fin N → M) (n : ℕ) (h : B * n + B ≤ N) :
    blockPrefix B f (n + 1)
      = blockPrefix B f n + ∑ j : Fin B, f ⟨B * n + j.val, lt_of_lt_of_le (Nat.add_lt_add_left j.isLt _) h⟩ := by
  unfold blockPrefix
  rw [Nat.mul_succ, sum_range_add]
  congr 1
  rw [Finset.sum_range]
  exact Finset.sum_congr rfl fun j _ => continued_of_lt f _ _

/-- All the blocks: the whole sum. -/
theorem blockPrefix_all (B : ℕ) (f : Fin N → M) (n : ℕ) (h : B * n = N) :
    blockPrefix B f n = ∑ k : Fin N, f k := by
  unfold blockPrefix
  rw [h, Finset.sum_range]
  exact Finset.sum_congr rfl fun k _ => continued_of_lt f _ k.isLt

end BlockPrefixSum
-- ==== Proof.Accum.lean ====
/-
  The accumulator, point by point, and the block each column tile writes out.

  Fix a row `p` and an output feature `o`. Input feature `k` contributes `x (p, k) * wdeq (k, o)` to the base
  product. The grid visits the 32 groups of a column tile in order; the accumulator starts from zero at the first
  group and each point adds its group's 128 contributions, so after group `g` it holds the sum of the contributions
  of the input features below `128 (g + 1)`: a prefix of the sum over all 4096, taken block by block. After the
  last group that is the whole sum, and the point writes out that sum plus twice the low-rank term.
-/
import proofs.«117057_j36704790511804_1_alg».proof.Proof.Pieces
import proofs.«117057_j36704790511804_1_alg».proof.Proof.PayAt
import proofs.«117057_j36704790511804_1_alg».proof.Proof.Blocks
import proofs.«117057_j36704790511804_1_alg».proof.Proof.LibBlockPrefixSum

noncomputable section

namespace Cert.KernelIdeal.Accum

open Cert.KernelIdeal Cert.KernelIdeal.Gen Cert.KernelIdeal.Blocks
open Idealize.ShloMosaic Idealize.ShloMosaic.TcCoe Idealize.SL.Sem Idealize.ShloMosaic.ValueIdx
open scoped BigOperators

/-! ## The accumulator and the output block from the run's found pieces, at any float values -/

section Generic

variable {F : FTy → Type} [FloatOps F]
variable (m : (ℓ : Loc nD τ sig) → Buf (Elt F) ℓ)

/-- At the first group of a column tile the accumulator is the update of the zero block. -/
theorem acc_reset (c : Dev nD) (t : Fin cfg0.N) (h0 : t.val % 32 = 0) :
    (outsAt0 m c t.val t.isLt).2 = k0_pay2 (xblk m c t) (wblk m c t) (zblk m c t) (sblk m c t) (k0_pay1 (F := F)) := by
  have h1 : ¬t.val % 32 = 31 := by omega
  rw [outsAt0_A m c t h0 h1]
  dsimp only
  exact Pieces.acc_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (xblk m c t) (wblk m c t) (zblk m c t) (sblk m c t) (hblk m c t) (bblk m c t)

/-- At any other group it is the update of what the point before left. -/
theorem acc_step (c : Dev nD) (t : Fin cfg0.N) (h0 : ¬t.val % 32 = 0) :
    (outsAt0 m c t.val t.isLt).2
      = k0_pay2 (xblk m c t) (wblk m c t) (zblk m c t) (sblk m c t) (outsAt0 m c (t.val - 1) (Nat.lt_of_le_of_lt (Nat.sub_le _ _) t.isLt)).2 := by
  by_cases h1 : t.val % 32 = 31
  · rw [outsAt0_C m c t h0 h1]
    dsimp only
    exact Pieces.acc_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (xblk m c t) (wblk m c t) (zblk m c t) (sblk m c t) (hblk m c t) (bblk m c t) (outsAt0 m c (t.val - 1) (Nat.lt_of_le_of_lt (Nat.sub_le _ _) t.isLt)).2
  · rw [outsAt0_B m c t h0 h1]
    dsimp only
    exact Pieces.acc_mid (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (xblk m c t) (wblk m c t) (zblk m c t) (sblk m c t) (hblk m c t) (bblk m c t) (outsAt0 m c (t.val - 1) (Nat.lt_of_le_of_lt (Nat.sub_le _ _) t.isLt)).2

/-- At the last group the output block is the low-rank term added to the accumulator as that point leaves it. -/
theorem out_flush (c : Dev nD) (t : Fin cfg0.N) (h1 : t.val % 32 = 31) :
    (outsAt0 m c t.val t.isLt).1 = k0_pay3 (hblk m c t) (bblk m c t) (outsAt0 m c t.val t.isLt).2 := by
  have h0 : ¬t.val % 32 = 0 := by omega
  rw [outsAt0_C m c t h0 h1]
  dsimp only
  exact (Pieces.out_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (xblk m c t) (wblk m c t) (zblk m c t) (sblk m c t) (hblk m c t) (bblk m c t) (outsAt0 m c (t.val - 1) (Nat.lt_of_le_of_lt (Nat.sub_le _ _) t.isLt)).2).trans
    (congrArg (k0_pay3 (hblk m c t) (bblk m c t))
      (Pieces.acc_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (xblk m c t) (wblk m c t) (zblk m c t) (sblk m c t) (hblk m c t) (bblk m c t) (outsAt0 m c (t.val - 1) (Nat.lt_of_le_of_lt (Nat.sub_le _ _) t.isLt)).2).symm)

end Generic

/-! ## On the extended reals -/

section AtIdeal

variable (m : (ℓ : Loc nD τ sig) → Buf (Elt Ideal) ℓ)

/-- The dequantized weight at input feature `k`, output feature `o`, from the arrays the kernel reads. -/
def wd (c : Dev nD) (k : Fin 4096) (o : Fin 11008) : EReal :=
  (QLora.code (warr m c (ix2 k o)) - QLora.code (zarr m c (ix3 (QLora.grp k) (0 : Fin 1) o)))
    * sarr m c (ix3 (QLora.grp k) (0 : Fin 1) o)

/-- The contribution of input feature `k` to the base product at row `p`, output feature `o`. -/
def term (c : Dev nD) (p : Fin 128) (o : Fin 11008) (k : Fin 4096) : EReal := xarr m c (ix2 p k) * wd m c k o

/-- One point's update adds its group's 128 contributions. -/
theorem step_at (c : Dev nD) (t : Fin cfg0.N) (prev : Vec Ideal S128x5504 .f32) (p : Fin 128) (q : Fin 5504) :
    k0_pay2 (F := Ideal) (xblk m c t) (wblk m c t) (zblk m c t) (sblk m c t) prev (ix2 p q)
      = prev (ix2 p q) + ∑ j : Fin 128, term m c p (col t q) (feat t j) := by
  rw [PayAt.acc_at]
  refine congrArg (prev (ix2 p q) + ·) (Finset.sum_congr rfl fun j _ => ?_)
  rw [xblk_at, wblk_at, zblk_at, sblk_at]
  have hg : QLora.grp (feat t j) = grpOf t :=
    Fin.ext (by show (128 * (t.val % 32) + j.val) / 128 = t.val % 32; have := j.isLt; omega)
  unfold term wd
  rw [hg]

/-- THE ACCUMULATOR after point `n`: the contributions of the input features of the groups up to the point's own. -/
theorem acc_eq (c : Dev nD) : ∀ (n : ℕ) (h : n < cfg0.N) (p : Fin 128) (q : Fin 5504),
    (outsAt0 m c n h).2 (ix2 p q)
      = BlockPrefixSum.blockPrefix 128 (term m c p (col ⟨n, h⟩ q)) (n % 32 + 1)
  | 0, h, p, q => by
    rw [acc_reset m c ⟨0, h⟩ rfl, step_at, PayAt.zero_at, zero_add,
      BlockPrefixSum.blockPrefix_succ 128 _ 0 (by norm_num), BlockPrefixSum.blockPrefix_zero, zero_add]
    rfl
  | n + 1, h, p, q => by
    have hN : n + 1 < 64 := lt_of_lt_of_eq h (show cfg0.N = 64 from N_0)
    by_cases h0 : (n + 1) % 32 = 0
    · rw [acc_reset m c ⟨n + 1, h⟩ h0, step_at, PayAt.zero_at, zero_add]
      refine Eq.trans ?_ (congrArg (BlockPrefixSum.blockPrefix 128 (term m c p (col ⟨n + 1, h⟩ q))) (show (n + 1) % 32 + 1 = 0 + 1 by omega)).symm
      rw [BlockPrefixSum.blockPrefix_succ 128 _ 0 (by norm_num), BlockPrefixSum.blockPrefix_zero, zero_add]
      refine Finset.sum_congr rfl fun j _ => congrArg _ (Fin.ext ?_)
      show 128 * ((n + 1) % 32) + j.val = 128 * 0 + j.val
      omega
    · have ih := acc_eq c n (Nat.lt_of_succ_lt h) p q
      have hcol : col (⟨n, Nat.lt_of_succ_lt h⟩ : Fin cfg0.N) q = col ⟨n + 1, h⟩ q :=
        Fin.ext (by show 5504 * (n / 32) + q.val = 5504 * ((n + 1) / 32) + q.val; omega)
      rw [acc_step m c ⟨n + 1, h⟩ h0, step_at]
      refine (congrArg (· + _) ih).trans ?_
      rw [hcol]
      refine Eq.trans ?_ (congrArg (BlockPrefixSum.blockPrefix 128 (term m c p (col ⟨n + 1, h⟩ q))) (show (n + 1) % 32 + 1 = (n % 32 + 1) + 1 by omega)).symm
      rw [BlockPrefixSum.blockPrefix_succ 128 _ (n % 32 + 1) (by omega)]
      refine congrArg (_ + ·) (Finset.sum_congr rfl fun j _ => congrArg _ (Fin.ext ?_))
      show 128 * ((n + 1) % 32) + j.val = 128 * (n % 32 + 1) + j.val
      omega

/-- THE OUTPUT BLOCK a column tile's last point writes: the whole base product plus twice the low-rank term. -/
theorem out_eq (c : Dev nD) (t : Fin cfg0.N) (h1 : t.val % 32 = 31) (p : Fin 128) (q : Fin 5504) :
    (outsAt0 m c t.val t.isLt).1 (ix2 p q)
      = (∑ k : Fin 4096, term m c p (col t q) k)
        + (∑ r : Fin 16, harr m c (ix2 p r) * barr m c (ix2 (col t q) r)) * QLora.two := by
  rw [out_flush m c t h1, PayAt.out_at, acc_eq m c t.val t.isLt p q]
  refine congrArg₂ (· + ·) ?_ ?_
  · refine Eq.trans (congrArg (BlockPrefixSum.blockPrefix 128 (term m c p (col t q))) (show t.val % 32 + 1 = 32 by omega)) ?_
    exact BlockPrefixSum.blockPrefix_all 128 _ 32 (by norm_num)
  · refine congrArg (· * QLora.two) (Finset.sum_congr rfl fun r _ => ?_)
    rw [hblk_at, bblk_at]

end AtIdeal

end Cert.KernelIdeal.Accum

end
-- ==== Proof.HostSide.lean ====
/-
  The arrays the kernel reads, in terms of the program's arguments, entry by entry.

  Row `16 b + s` of the [128, 4096] activations is token (b, s); the projection at that row and direction `r` is
  `∑ k, X b s k * A r k`; the zero points and scales with a unit middle axis read, at (g, 0, o), the originals at
  (g, o). With these the kernel's whole result at row `16 b + s`, output feature `o`, is the layer's result at
  token (b, s), output feature `o`.
-/
import proofs.«117057_j36704790511804_1_alg».proof.Proof.Accum

noncomputable section

namespace Cert.KernelIdeal.HostSide

open Cert.KernelIdeal Cert.KernelIdeal.Gen Cert.KernelIdeal.Blocks Cert.KernelIdeal.Accum
open Idealize.ShloMosaic Idealize.ShloMosaic.TcCoe Idealize.SL.Sem Idealize.ShloMosaic.ValueIdx
open scoped BigOperators

variable (m : (ℓ : Loc nD τ sig) → Buf (Elt Ideal) ℓ)

/-- The program's six arguments, as arrays of extended reals and of integer codes. -/
abbrev argX (c : Dev nD) : S8x16x4096.Idx → EReal := m ((c : Thread nD τ).loc main_arg0)
abbrev argW (c : Dev nD) : S4096x11008.Idx → BitVec 32 := m ((c : Thread nD τ).loc main_arg1)
abbrev argZ (c : Dev nD) : S32x11008.Idx → BitVec 32 := m ((c : Thread nD τ).loc main_arg2)
abbrev argS (c : Dev nD) : S32x11008.Idx → EReal := m ((c : Thread nD τ).loc main_arg3)
abbrev argA (c : Dev nD) : S16x4096.Idx → EReal := m ((c : Thread nD τ).loc main_arg4)
abbrev argB (c : Dev nD) : S11008x16.Idx → EReal := m ((c : Thread nD τ).loc main_arg5)

/-- The row of token (b, s). -/
abbrev row (b : Fin 8) (s : Fin 16) : Fin 128 := ⟨16 * b.val + s.val, by have := b.isLt; have := s.isLt; omega⟩

theorem reshape_at (x : S8x16x4096.Idx → EReal) (b : Fin 8) (s : Fin 16) (k : Fin 4096) :
    shapeCast S128x4096 x shapeCasts_S8x16x4096_S128x4096 (ix2 (row b s) k) = x (ix3 b s k) :=
  shapeCast_apply x shapeCasts_S8x16x4096_S128x4096 _ _ (by
    rw [Shape.rowMajor_val_three, Shape.rowMajor_val_two]
    show (b.val * 16 + s.val) * 4096 + k.val = (16 * b.val + s.val) * 4096 + k.val
    omega)

theorem xarr_at (c : Dev nD) (b : Fin 8) (s : Fin 16) (k : Fin 4096) :
    xarr m c (ix2 (row b s) k) = (argX m c) (ix3 b s k) := by
  rw [xarr_eq]
  exact reshape_at _ b s k

theorem harr_at (c : Dev nD) (b : Fin 8) (s : Fin 16) (r : Fin 16) :
    harr m c (ix2 (row b s) r) = QLora.proj (argX m c) (argA m c) b s r := by
  rw [harr_eq]
  simp only [Host.dotGeneral]
  rw [PlainDot.dotGeneral_apply dot_S128x4096_S4096x16_S128x16_1_0_0_1_n_n rfl rfl rfl rfl rfl rfl]
  unfold QLora.proj
  refine Finset.sum_congr rfl fun k _ => ?_
  rw [transpose_ix2_apply, reshape_at]

theorem zarr_at (c : Dev nD) (g : Fin 32) (o : Fin 11008) :
    zarr m c (ix3 g (0 : Fin 1) o) = (argZ m c) (ix2 g o) := by
  rw [zarr_eq]
  exact broadcastInDim_apply _ bcast_S32x11008_S32x1x11008_0_2 _ _ (ix2 g o) (fun a => match a with
    | ⟨0, _⟩ => by show g.val = if (32 : Nat) = 1 then 0 else g.val; rw [if_neg (by decide)]
    | ⟨1, _⟩ => by show o.val = if (11008 : Nat) = 1 then 0 else o.val; rw [if_neg (by decide)])

theorem sarr_at (c : Dev nD) (g : Fin 32) (o : Fin 11008) :
    sarr m c (ix3 g (0 : Fin 1) o) = (argS m c) (ix2 g o) := by
  rw [sarr_eq]
  exact broadcastInDim_apply _ bcast_S32x11008_S32x1x11008_0_2 _ _ (ix2 g o) (fun a => match a with
    | ⟨0, _⟩ => by show g.val = if (32 : Nat) = 1 then 0 else g.val; rw [if_neg (by decide)]
    | ⟨1, _⟩ => by show o.val = if (11008 : Nat) = 1 then 0 else o.val; rw [if_neg (by decide)])

/-- The kernel's whole [128, 11008] result: the base product over all 4096 input features plus twice the low-rank term. -/
def whole (c : Dev nD) : Vec Ideal S128x11008 .f32 := fun i =>
  (∑ k : Fin 4096, term m c (i 0) (i 1) k) + (∑ r : Fin 16, harr m c (ix2 (i 0) r) * barr m c (ix2 (i 1) r)) * QLora.two

theorem whole_apply (c : Dev nD) (p : Fin 128) (o : Fin 11008) :
    whole m c (ix2 p o)
      = (∑ k : Fin 4096, term m c p o k) + (∑ r : Fin 16, harr m c (ix2 p r) * barr m c (ix2 o r)) * QLora.two := rfl

/-- At row `16 b + s` it is the layer's result at token (b, s). -/
theorem whole_at (c : Dev nD) (b : Fin 8) (s : Fin 16) (o : Fin 11008) :
    whole m c (ix2 (row b s) o) = QLora.result (argX m c) (argW m c) (argZ m c) (argS m c) (argA m c) (argB m c) (ix3 b s o) := by
  rw [whole_apply]
  show _ = (∑ i : Fin 4096, (argX m c) (ix3 b s i) * QLora.wdeq (argW m c) (argZ m c) (argS m c) i o)
    + (∑ r : Fin 16, QLora.proj (argX m c) (argA m c) b s r * (argB m c) (ix2 o r)) * QLora.two
  refine congrArg₂ (· + ·) (Finset.sum_congr rfl fun k _ => ?_) (congrArg (· * QLora.two) (Finset.sum_congr rfl fun r _ => ?_))
  · unfold term wd QLora.wdeq
    rw [xarr_at, zarr_at, sarr_at, warr_eq]
  · rw [harr_at, barr_eq]

end Cert.KernelIdeal.HostSide

end
-- ==== Proof.Final.lean ====
/-
  The kernel program's run: its result array is the layer's result.

  Each column tile's last point writes its [128, 5504] output block at columns `5504 (t / 32) + q`; the two tiles'
  blocks together cover the [128, 11008] array, so the array ends at the kernel's whole result. The program then
  re-lays it as [8, 16, 11008], row `16 b + s` becoming token (b, s).
-/
import proofs.«117057_j36704790511804_1_alg».proof.Proof.HostSide

noncomputable section

namespace Cert.KernelIdeal.Final

open Cert.KernelIdeal Cert.KernelIdeal.Gen Cert.KernelIdeal.Blocks Cert.KernelIdeal.Accum Cert.KernelIdeal.HostSide
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- What a column tile's last point writes back is that tile's block of the whole result. -/
theorem flushed_eq (c : Dev nD) (t : Fin cfg0.N) (hf : (cfg0.win 6).flush t = true) :
    (dats m 0 c).flushed 6 t = ((cfg0.win 6).blk t).view.read (Elt Ideal) (whole m c) := by
  have h1 : t.val % 32 = 31 := (flush0_6 t).mp hf
  show (cfg0.win 6).cut (grid0.coords t) ((dats m 0 c).after 6 t) = _
  rw [after0_6]
  funext j
  obtain ⟨p, q, rfl⟩ : ∃ (p : Fin 128) (q : Fin 5504), j = ix2 p q := ⟨j 0, j 1, eq_ix2 j⟩
  show (outsAt0 m c t.val t.isLt).1 (ix2 p q) = whole m c (((cfg0.win 6).blk t).view.emb (ix2 p q))
  have he : ((cfg0.win 6).blk t).view.emb (ix2 p q) = ix2 p (col t q) := by
    obtain ⟨-, -, -, -, -, -, -, -, -, -, -, -, -, -, e0, e1⟩ := idx_facts t
    funext a; apply Fin.ext
    match a with
    | ⟨0, _⟩ => show win0_6.index t (0 : Fin 2) * 128 + 1 * p.val = p.val; omega
    | ⟨1, _⟩ => show win0_6.index t (1 : Fin 2) * 5504 + 1 * q.val = 5504 * (t.val / 32) + q.val; omega
  rw [he, whole_apply, out_eq m c t h1 p q]

/-- Every entry of the result array is in the block some column tile's last point writes. -/
theorem cover (i : S128x11008.Idx) :
    ∃ t : Fin cfg0.N, (cfg0.win 6).flush t = true ∧ i ∈ ((cfg0.win 6).blk t).view.set := by
  have hi0 : (i 0).val < 128 := (i 0).isLt
  have hi1 : (i 1).val < 11008 := (i 1).isLt
  have hN : cfg0.N = 64 := N_0
  have hlt : 32 * ((i 1).val / 5504) + 31 < cfg0.N := by omega
  refine ⟨⟨32 * ((i 1).val / 5504) + 31, hlt⟩, (flush0_6 _).mpr (by show (32 * ((i 1).val / 5504) + 31) % 32 = 31; omega), ?_⟩
  obtain ⟨-, -, -, -, -, -, -, -, -, -, -, -, -, -, e0, e1⟩ := idx_facts ⟨32 * ((i 1).val / 5504) + 31, hlt⟩
  have e1' : win0_6.index ⟨32 * ((i 1).val / 5504) + 31, hlt⟩ (1 : Fin 2) = (32 * ((i 1).val / 5504) + 31) / 32 := e1
  show i ∈ ((View.whole main_v5).slice (win0_6.rect ⟨32 * ((i 1).val / 5504) + 31, hlt⟩)).set
  rw [View.set_slice_whole, Rect.mem_set_unit]
  intro a
  match a with
  | ⟨0, _⟩ =>
    show win0_6.index ⟨32 * ((i 1).val / 5504) + 31, hlt⟩ (0 : Fin 2) * 128 ≤ (i 0).val
      ∧ (i 0).val < win0_6.index ⟨32 * ((i 1).val / 5504) + 31, hlt⟩ (0 : Fin 2) * 128 + 128
    omega
  | ⟨1, _⟩ =>
    show win0_6.index ⟨32 * ((i 1).val / 5504) + 31, hlt⟩ (1 : Fin 2) * 5504 ≤ (i 1).val
      ∧ (i 1).val < win0_6.index ⟨32 * ((i 1).val / 5504) + 31, hlt⟩ (1 : Fin 2) * 5504 + 5504
    omega

/-- The result array after the kernel. -/
theorem final (c : Dev nD) : (dats m 0 c).arrAt 6 cfg0.N = whole m c :=
  (dats m 0 c).arrAt_eq_of_cover 6 (whole m c) (flushed_eq m c) cover

/-- The program's result: the whole result re-laid as [8, 16, 11008]. -/
theorem tail_eq (c : Dev nD) :
    Pipeline.afterTail₀ cfgs (dats m) 0 (V0 m) [hostOps1] c main_v6
      = shapeCast S8x16x11008 (whole m c) shapeCasts_S128x11008_S8x16x11008 := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = whole m c :=
    (Pipeline.withArrays_arr spec0 launch0.win.arr_inj c _ _ 6).trans (final m c)
  exact congrArg (fun x => shapeCast S8x16x11008 x shapeCasts_S128x11008_S8x16x11008) hw

/-- Re-laid, the whole result is the layer's result of the program's arguments. -/
theorem relaid_eq (c : Dev nD) :
    shapeCast S8x16x11008 (whole m c) shapeCasts_S128x11008_S8x16x11008 = QLora.result (argX m c) (argW m c) (argZ m c) (argS m c) (argA m c) (argB m c) := by
  funext j
  obtain ⟨b, s, o, rfl⟩ : ∃ (b : Fin 8) (s : Fin 16) (o : Fin 11008), j = ix3 b s o := ⟨j 0, j 1, j 2, eq_ix3 j⟩
  rw [shapeCast_apply (whole m c) shapeCasts_S128x11008_S8x16x11008 (ix3 b s o) (ix2 (row b s) o) (by
    rw [Shape.rowMajor_val_two, Shape.rowMajor_val_three]
    show (16 * b.val + s.val) * 11008 + o.val = (b.val * 16 + s.val) * 11008 + o.val
    omega)]
  exact whole_at m c b s o

/-- THE RUN: every weakly fair execution of the kernel program terminates with its result at the layer's result of its
    arguments, and the arguments unchanged. -/
theorem run : θ_run defs (onTc (τ := τ) (main (F := Ideal))) ⟨m, fun _ => 0, ρ⟩ (fun r => ∀ c : Dev nD,
      r.2.mem ((c.tc : Thread nD τ).loc main_v6) = QLora.result (argX m c) (argW m c) (argZ m c) (argS m c) (argA m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v6 (Pipeline.mem_restRefs_of main_v6 (by decide) (by decide))).trans ((tail_eq m c).trans (relaid_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩)
    (run_main m ρ)

end Cert.KernelIdeal.Final

end
-- ==== Proof.lean ====
/-
  The certificate of the quantized linear layer with a low-rank update: the kernel against its reference.

  On the extended reals both programs compute, at token (b, s) and output feature o,

      ∑ i, X b s i * ((W i o - Z (i / 128) o) * Sc (i / 128) o)  +  (∑ r, (∑ i, X b s i * A r i) * B o r) * 2.

  The reference takes the sum over the 4096 input features at once. The kernel takes it over 32 groups of 128 in
  grid order, starting an accumulator from zero at a column tile's first group and adding one group's product per
  point; after the last group it adds twice the low-rank term and writes the block out. A sum taken block by block is
  the same sum (addition on the extended reals is commutative and associative; no entry need be finite), narrowing to
  a shorter float format is the identity there, and the integer codes are read exactly on both sides, so the two
  results agree entry by entry.

  The three frame claims are the generated frame runs; the ideal pass rewrote nothing, so the kernel's idealization
  is its own text.
-/
import proofs.«117057_j36704790511804_1_alg».proof.Defs
import proofs.«117057_j36704790511804_1_alg».proof.Proof.Gen.Kernel
import proofs.«117057_j36704790511804_1_alg».proof.Proof.Gen.Kernel.Frame
import proofs.«117057_j36704790511804_1_alg».proof.Proof.Gen.KernelIdeal
import proofs.«117057_j36704790511804_1_alg».proof.Proof.Gen.KernelIdeal.Frame
import proofs.«117057_j36704790511804_1_alg».proof.Proof.Gen.ReferenceIdeal
import proofs.«117057_j36704790511804_1_alg».proof.Proof.Gen.Pre_finite_inputs
import proofs.«117057_j36704790511804_1_alg».proof.Proof.Gen.ReferenceIdeal.Run
import proofs.«117057_j36704790511804_1_alg».proof.Proof.Gen.ReferenceIdeal.Read
import proofs.«117057_j36704790511804_1_alg».proof.Proof.RefSide
import proofs.«117057_j36704790511804_1_alg».proof.Proof.Final
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel's result array ends at the layer's result of its arguments; the reference's at the same formula of
    arguments that agree with them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v13_eq _ _ _ _ _ _).trans (Cert.QLora.Ref.result_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
